-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x56x56 : Shape := ⟨4, ![32, 256, 56, 56]⟩
abbrev S256x13 : Shape := ⟨2, ![256, 13]⟩
abbrev S256x2 : Shape := ⟨2, ![256, 2]⟩
abbrev S_ : Shape := ⟨0, ![]⟩

class Facts : Prop where
  bcast_S_S32x256x56x56 : S_.BroadcastsInDim S32x256x56x56 (![] : Fin 0 → Fin S32x256x56x56.rank)
  reducesTo_S32x256x56x56_S_d0_1_2_3 : S32x256x56x56.ReducesTo [0, 1, 2, 3] S_
  h_S_ : 0 < S_.numel
  bcast_S_S256x13 : S_.BroadcastsInDim S256x13 (![] : Fin 0 → Fin S256x13.rank)
  reducesTo_S256x13_S_d0_1 : S256x13.ReducesTo [0, 1] S_
  bcast_S_S256x2 : S_.BroadcastsInDim S256x2 (![] : Fin 0 → Fin S256x2.rank)
  reducesTo_S256x2_S_d0_1 : S256x2.ReducesTo [0, 1] S_

variable [Facts]

def fn {F : FTy → Type} [FloatOps F] (main_arg0 : FVec F S32x256x56x56 .f32) (main_arg1 : FVec F S256x13 .f32) (main_arg2 : FVec F S256x2 .f32) : IVec S_ 1 :=
  let main_v0 : FVec F S32x256x56x56 .f32 := Host.absf main_arg0
  let main_cst : FVec F S_ .f32 := constant S_ .f32 0x7F800000#32
  let main_v1 : FVec F S32x256x56x56 .f32 := broadcastInDim S32x256x56x56 ![] bcast_S_S32x256x56x56 main_cst
  let main_v2 : IVec S32x256x56x56 1 := cmpf .olt main_v0 main_v1
  let main_c : IVec S_ 1 := constantI S_ 1 1#1
  let main_v3 : IVec S_ 1 := (fun x v => Host.reduce IntOp.andi x v reducesTo_S32x256x56x56_S_d0_1_2_3 h_S_) main_v2 main_c
  let main_v4 : FVec F S256x13 .f32 := Host.absf main_arg1
  let main_cst_0 : FVec F S_ .f32 := constant S_ .f32 0x7F800000#32
  let main_v5 : FVec F S256x13 .f32 := broadcastInDim S256x13 ![] bcast_S_S256x13 main_cst_0
  let main_v6 : IVec S256x13 1 := cmpf .olt main_v4 main_v5
  let main_c_1 : IVec S_ 1 := constantI S_ 1 1#1
  let main_v7 : IVec S_ 1 := (fun x v => Host.reduce IntOp.andi x v reducesTo_S256x13_S_d0_1 h_S_) main_v6 main_c_1
  let main_v8 : IVec S_ 1 := andi main_v3 main_v7
  let main_v9 : FVec F S256x2 .f32 := Host.absf main_arg2
  let main_cst_2 : FVec F S_ .f32 := constant S_ .f32 0x7F800000#32
  let main_v10 : FVec F S256x2 .f32 := broadcastInDim S256x2 ![] bcast_S_S256x2 main_cst_2
  let main_v11 : IVec S256x2 1 := cmpf .olt main_v9 main_v10
  let main_c_3 : IVec S_ 1 := constantI S_ 1 1#1
  let main_v12 : IVec S_ 1 := (fun x v => Host.reduce IntOp.andi x v reducesTo_S256x2_S_d0_1 h_S_) main_v11 main_c_3
  let main_v13 : IVec S_ 1 := andi main_v8 main_v12
  main_v13
-- ==== Kernel.lean ====
abbrev S32x256x56x56 : Shape := ⟨4, ![32, 256, 56, 56]⟩
abbrev S256x13 : Shape := ⟨2, ![256, 13]⟩
abbrev S256x2 : Shape := ⟨2, ![256, 2]⟩
abbrev S32x256x3136 : Shape := ⟨3, ![32, 256, 3136]⟩
abbrev S8x32x3136 : Shape := ⟨3, ![8, 32, 3136]⟩
abbrev S32x13 : Shape := ⟨2, ![32, 13]⟩
abbrev S32x2 : Shape := ⟨2, ![32, 2]⟩
abbrev S32x1 : Shape := ⟨2, ![32, 1]⟩
abbrev S32 : Shape := ⟨1, ![32]⟩
abbrev S1x32x1 : Shape := ⟨3, ![1, 32, 1]⟩

abbrev nBuf : Space → Nat
  | .hbm => 6
  | .vmem => 8
  | .smem => 0
  | _ => 0

abbrev bufTy : (tb : Table) → Fin (tcTables nBuf tb) → BufTy
  | .hbm, ⟨0, _⟩ => ⟨S32x256x56x56, .f32⟩
  | .hbm, ⟨1, _⟩ => ⟨S256x13, .f32⟩
  | .hbm, ⟨2, _⟩ => ⟨S256x2, .f32⟩
  | .hbm, ⟨3, _⟩ => ⟨S32x256x3136, .f32⟩
  | .hbm, ⟨4, _⟩ => ⟨S32x256x3136, .f32⟩
  | .hbm, ⟨5, _⟩ => ⟨S32x256x56x56, .f32⟩
  | .local _ .vmem, ⟨0, _⟩ => ⟨S8x32x3136, .f32⟩
  | .local _ .vmem, ⟨1, _⟩ => ⟨S8x32x3136, .f32⟩
  | .local _ .vmem, ⟨2, _⟩ => ⟨S32x13, .f32⟩
  | .local _ .vmem, ⟨3, _⟩ => ⟨S32x13, .f32⟩
  | .local _ .vmem, ⟨4, _⟩ => ⟨S32x2, .f32⟩
  | .local _ .vmem, ⟨5, _⟩ => ⟨S32x2, .f32⟩
  | .local _ .vmem, ⟨6, _⟩ => ⟨S8x32x3136, .f32⟩
  | .local _ .vmem, ⟨7, _⟩ => ⟨S8x32x3136, .f32⟩
  | _, _ => ⟨S32x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S8x32x3136 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x13 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S32x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x32x3136 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S32x256x56x56_S32x256x3136 : S32x256x56x56.ShapeCasts S32x256x3136
  inb_S8x32x3136_S8x32x3136_0_0_0 : ∀ a, (![0, 0, 0] : Fin 3 → Nat) a + S8x32x3136.size a ≤ S8x32x3136.size a
  h_S8x32x3136 : 0 < S8x32x3136.numel
  shapeCasts_S8x32x3136_S8x32x3136 : S8x32x3136.ShapeCasts S8x32x3136
  inb_S32x2_S32x2_0_0 : ∀ a, (![0, 0] : Fin 2 → Nat) a + S32x2.size a ≤ S32x2.size a
  h_S32x2 : 0 < S32x2.numel
  inb_S32x13_S32x13_0_0 : ∀ a, (![0, 0] : Fin 2 → Nat) a + S32x13.size a ≤ S32x13.size a
  h_S32x13 : 0 < S32x13.numel
  slices_S32x2_o0_0_S32x1 : S32x2.Slices ![0, 0] S32x1
  shapeCasts_S32x1_S32 : S32x1.ShapeCasts S32
  shapeCasts_S32_S1x32x1 : S32.ShapeCasts S1x32x1
  slices_S32x2_o0_1_S32x1 : S32x2.Slices ![0, 1] S32x1
  broadcasts_S1x32x1_S8x32x3136 : S1x32x1.Broadcasts S8x32x3136
  slices_S32x13_o0_0_S32x1 : S32x13.Slices ![0, 0] S32x1
  slices_S32x13_o0_1_S32x1 : S32x13.Slices ![0, 1] S32x1
  shapeCasts_S1x32x1_S1x32x1 : S1x32x1.ShapeCasts S1x32x1
  slices_S32x13_o0_2_S32x1 : S32x13.Slices ![0, 2] S32x1
  slices_S32x13_o0_3_S32x1 : S32x13.Slices ![0, 3] S32x1
  slices_S32x13_o0_4_S32x1 : S32x13.Slices ![0, 4] S32x1
  slices_S32x13_o0_5_S32x1 : S32x13.Slices ![0, 5] S32x1
  slices_S32x13_o0_6_S32x1 : S32x13.Slices ![0, 6] S32x1
  slices_S32x13_o0_7_S32x1 : S32x13.Slices ![0, 7] S32x1
  slices_S32x13_o0_8_S32x1 : S32x13.Slices ![0, 8] S32x1
  slices_S32x13_o0_9_S32x1 : S32x13.Slices ![0, 9] S32x1
  slices_S32x13_o0_10_S32x1 : S32x13.Slices ![0, 10] S32x1
  slices_S32x13_o0_11_S32x1 : S32x13.Slices ![0, 11] S32x1
  slices_S32x13_o0_12_S32x1 : S32x13.Slices ![0, 12] S32x1
  shapeCasts_S32x256x3136_S32x256x56x56 : S32x256x3136.ShapeCasts S32x256x56x56
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x32x3136.size a ≤ S32x256x3136.size a
  hwx0_0 : ∀ i : grid0.Coords, EltTy.bits .f32 = 32 ∨ (Rect.block (s := S32x256x3136) S8x32x3136.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x13.size a ≤ S256x13.size a
  hwx0_1 : ∀ i : grid0.Coords, EltTy.bits .f32 = 32 ∨ (Rect.block (s := S256x13) S32x13.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x2.size a ≤ S256x2.size a
  hwx0_2 : ∀ i : grid0.Coords, EltTy.bits .f32 = 32 ∨ (Rect.block (s := S256x2) S32x2.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x32x3136.size a ≤ S32x256x3136.size a
  hwx0_3 : ∀ i : grid0.Coords, EltTy.bits .f32 = 32 ∨ (Rect.block (s := S32x256x3136) S8x32x3136.size (cc0_transform_3 i) (hinb0_3 i)).WholeWords (EltTy.packing .f32)

variable [Facts₀]

abbrev win0_0 : Pipeline.Window sig grid0 :=
  Pipeline.Window.ofSpec (Memref.whole main_v0) S8x32x3136.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x13.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x2.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S8x32x3136.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x256x56x56 : Shape := ⟨4, ![32, 256, 56, 56]⟩
abbrev S256x13 : Shape := ⟨2, ![256, 13]⟩
abbrev S256x2 : Shape := ⟨2, ![256, 2]⟩
abbrev S256x1 : Shape := ⟨2, ![256, 1]⟩
abbrev S256 : Shape := ⟨1, ![256]⟩
abbrev S1x256x1x1 : Shape := ⟨4, ![1, 256, 1, 1]⟩
abbrev S_ : Shape := ⟨0, ![]⟩
abbrev S32x256x56x56x1 : Shape := ⟨5, ![32, 256, 56, 56, 1]⟩
abbrev S32x256x56x56x2 : Shape := ⟨5, ![32, 256, 56, 56, 2]⟩

abbrev nBuf : Space → Nat
  | .hbm => 80
  | .vmem => 0
  | .smem => 0
  | _ => 0

abbrev bufTy : (tb : Table) → Fin (tcTables nBuf tb) → BufTy
  | .hbm, ⟨0, _⟩ => ⟨S32x256x56x56, .f32⟩
  | .hbm, ⟨1, _⟩ => ⟨S256x13, .f32⟩
  | .hbm, ⟨2, _⟩ => ⟨S256x2, .f32⟩
  | .hbm, ⟨3, _⟩ => ⟨S256x1, .f32⟩
  | .hbm, ⟨4, _⟩ => ⟨S256, .f32⟩
  | .hbm, ⟨5, _⟩ => ⟨S1x256x1x1, .f32⟩
  | .hbm, ⟨6, _⟩ => ⟨S256x1, .f32⟩
  | .hbm, ⟨7, _⟩ => ⟨S256, .f32⟩
  | .hbm, ⟨8, _⟩ => ⟨S1x256x1x1, .f32⟩
  | .hbm, ⟨9, _⟩ => ⟨S32x256x56x56, .f32⟩
  | .hbm, ⟨10, _⟩ => ⟨S32x256x56x56, .f32⟩
  | .hbm, ⟨11, _⟩ => ⟨S1x256x1x1, .f32⟩
  | .hbm, ⟨12, _⟩ => ⟨S32x256x56x56, .f32⟩
  | .hbm, ⟨13, _⟩ => ⟨S32x256x56x56, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S32x256x56x56, .f32⟩
  | .hbm, ⟨18, _⟩ => ⟨S32x256x56x56, .f32⟩
  | .hbm, ⟨19, _⟩ => ⟨S_, .f32⟩
  | .hbm, ⟨20, _⟩ => ⟨S32x256x56x56, .f32⟩
  | .hbm, ⟨21, _⟩ => ⟨S32x256x56x56, .f32⟩
  | .hbm, ⟨22, _⟩ => ⟨S_, .f32⟩
  | .hbm, ⟨23, _⟩ => ⟨S32x256x56x56, .f32⟩
  | .hbm, ⟨24, _⟩ => ⟨S32x256x56x56, .f32⟩
  | .hbm, ⟨25, _⟩ => ⟨S32x256x56x56, .f32⟩
  | .hbm, ⟨26, _⟩ => ⟨S_, .f32⟩
  | .hbm, ⟨27, _⟩ => ⟨S32x256x56x56, .f32⟩
  | .hbm, ⟨28, _⟩ => ⟨S32x256x56x56, .f32⟩
  | .hbm, ⟨29, _⟩ => ⟨S32x256x56x56, .f32⟩
  | .hbm, ⟨30, _⟩ => ⟨S32x256x56x56, .i32⟩
  | .hbm, ⟨31, _⟩ => ⟨S256, .i32⟩
  | .hbm, ⟨32, _⟩ => ⟨S1x256x1x1, .i32⟩
  | .hbm, ⟨33, _⟩ => ⟨S_, .i32⟩
  | .hbm, ⟨34, _⟩ => ⟨S1x256x1x1, .i32⟩
  | .hbm, ⟨35, _⟩ => ⟨S1x256x1x1, .i1⟩
  | .hbm, ⟨36, _⟩ => ⟨S_, .i32⟩
  | .hbm, ⟨37, _⟩ => ⟨S1x256x1x1, .i32⟩
  | .hbm, ⟨38, _⟩ => ⟨S1x256x1x1, .i32⟩
  | .hbm, ⟨39, _⟩ => ⟨S1x256x1x1, .i32⟩
  | .hbm, ⟨40, _⟩ => ⟨S_, .i32⟩
  | .hbm, ⟨41, _⟩ => ⟨S32x256x56x56, .i32⟩
  | .hbm, ⟨42, _⟩ => ⟨S32x256x56x56, .i1⟩
  | .hbm, ⟨43, _⟩ => ⟨S_, .i32⟩
  | .hbm, ⟨44, _⟩ => ⟨S32x256x56x56, .i32⟩
  | .hbm, ⟨45, _⟩ => ⟨S32x256x56x56, .i32⟩
  | .hbm, ⟨46, _⟩ => ⟨S32x256x56x56, .i32⟩
  | .hbm, ⟨47, _⟩ => ⟨S32x256x56x56, .i32⟩
  | .hbm, ⟨48, _⟩ => ⟨S32x256x56x56x1, .i32⟩
  | .hbm, ⟨49, _⟩ => ⟨S32x256x56x56x1, .i32⟩
  | .hbm, ⟨50, _⟩ => ⟨S32x256x56x56x2, .i32⟩
  | .hbm, ⟨51, _⟩ => ⟨S32x256x56x56, .f32⟩
  | .hbm, ⟨52, _⟩ => ⟨S_, .i32⟩
  | .hbm, ⟨53, _⟩ => ⟨S32x256x56x56, .i32⟩
  | .hbm, ⟨54, _⟩ => ⟨S32x256x56x56, .i32⟩
  | .hbm, ⟨55, _⟩ => ⟨S_, .i32⟩
  | .hbm, ⟨56, _⟩ => ⟨S1x256x1x1, .i32⟩
  | .hbm, ⟨57, _⟩ => ⟨S1x256x1x1, .i1⟩
  | .hbm, ⟨58, _⟩ => ⟨S_, .i32⟩
  | .hbm, ⟨59, _⟩ => ⟨S1x256x1x1, .i32⟩
  | .hbm, ⟨60, _⟩ => ⟨S1x256x1x1, .i32⟩
  | .hbm, ⟨61, _⟩ => ⟨S1x256x1x1, .i32⟩
  | .hbm, ⟨62, _⟩ => ⟨S_, .i32⟩
  | .hbm, ⟨63, _⟩ => ⟨S32x256x56x56, .i32⟩
  | .hbm, ⟨64, _⟩ => ⟨S32x256x56x56, .i1⟩
  | .hbm, ⟨65, _⟩ => ⟨S_, .i32⟩
  | .hbm, ⟨66, _⟩ => ⟨S32x256x56x56, .i32⟩
  | .hbm, ⟨67, _⟩ => ⟨S32x256x56x56, .i32⟩
  | .hbm, ⟨68, _⟩ => ⟨S32x256x56x56, .i32⟩
  | .hbm, ⟨69, _⟩ => ⟨S32x256x56x56, .i32⟩
  | .hbm, ⟨70, _⟩ => ⟨S32x256x56x56x1, .i32⟩
  | .hbm, ⟨71, _⟩ => ⟨S32x256x56x56x1, .i32⟩
  | .hbm, ⟨72, _⟩ => ⟨S32x256x56x56x2, .i32⟩
  | .hbm, ⟨73, _⟩ => ⟨S32x256x56x56, .f32⟩
  | .hbm, ⟨74, _⟩ => ⟨S_, .f32⟩
  | .hbm, ⟨75, _⟩ => ⟨S32x256x56x56, .f32⟩
  | .hbm, ⟨76, _⟩ => ⟨S32x256x56x56, .f32⟩
  | .hbm, ⟨77, _⟩ => ⟨S32x256x56x56, .f32⟩
  | .hbm, ⟨78, _⟩ => ⟨S32x256x56x56, .f32⟩
  | .hbm, ⟨79, _⟩ => ⟨S32x256x56x56, .f32⟩
  | _, _ => ⟨S32x256x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_cst_0 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c : Ref sig .tc := ⟨.hbm, 33, rfl⟩
abbrev main_v21 : Ref sig .tc := ⟨.hbm, 34, rfl⟩
abbrev main_v22 : Ref sig .tc := ⟨.hbm, 35, rfl⟩
abbrev main_c_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_4 : Ref sig .tc := ⟨.hbm, 40, rfl⟩
abbrev main_v26 : Ref sig .tc := ⟨.hbm, 41, rfl⟩
abbrev main_v27 : Ref sig .tc := ⟨.hbm, 42, rfl⟩
abbrev main_c_5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_6 : Ref sig .tc := ⟨.hbm, 52, rfl⟩
abbrev main_v36 : Ref sig .tc := ⟨.hbm, 53, rfl⟩
abbrev main_v37 : Ref sig .tc := ⟨.hbm, 54, rfl⟩
abbrev main_c_7 : Ref sig .tc := ⟨.hbm, 55, rfl⟩
abbrev main_v38 : Ref sig .tc := ⟨.hbm, 56, rfl⟩
abbrev main_v39 : Ref sig .tc := ⟨.hbm, 57, rfl⟩
abbrev main_c_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_c_9 : Ref sig .tc := ⟨.hbm, 62, rfl⟩
abbrev main_v43 : Ref sig .tc := ⟨.hbm, 63, rfl⟩
abbrev main_v44 : Ref sig .tc := ⟨.hbm, 64, rfl⟩
abbrev main_c_10 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_11 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩

abbrev nD : Nat := 1
abbrev τ : Topo := Topo.v7x

variable {F : FTy → Type} [FloatOps F]

class Facts₀ : Prop where
  slices_S256x2_S256x1_0_0 : S256x2.Slices ![0, 0] S256x1
  shapeCasts_S256x1_S256 : S256x1.ShapeCasts S256
  bcast_S256_S1x256x1x1_1 : S256.BroadcastsInDim S1x256x1x1 (![1] : Fin 1 → Fin S1x256x1x1.rank)
  slices_S256x2_S256x1_0_1 : S256x2.Slices ![0, 1] S256x1
  bcast_S1x256x1x1_S32x256x56x56_0_1_2_3 : S1x256x1x1.BroadcastsInDim S32x256x56x56 (![0, 1, 2, 3] : Fin 4 → Fin S32x256x56x56.rank)
  bcast_S_S32x256x56x56 : S_.BroadcastsInDim S32x256x56x56 (![] : Fin 0 → Fin S32x256x56x56.rank)
  bcast_S_S1x256x1x1 : S_.BroadcastsInDim S1x256x1x1 (![] : Fin 0 → Fin S1x256x1x1.rank)
  bcast_S32x256x56x56_S32x256x56x56x1_0_1_2_3 : S32x256x56x56.BroadcastsInDim S32x256x56x56x1 (![0, 1, 2, 3] : Fin 4 → Fin S32x256x56x56x1.rank)
  concatenates_S32x256x56x56x1_S32x256x56x56x1_S32x256x56x56x2_d4 : Shape.Concatenates [S32x256x56x56x1, S32x256x56x56x1] S32x256x56x56x2 4
  gather_S256x13_S32x256x56x56x2_S32x256x56x56_n_01_n_n_01_4_11_wf : GatherDims.WF S256x13 S32x256x56x56x2 S32x256x56x56 [] [0, 1] [] [0, 1] [] 4 ![1, 1]

variable [Facts₀]

def gather_S256x13_S32x256x56x56x2_S32x256x56x56_n_01_n_n_01_4_11 : GatherDims S256x13 S32x256x56x56x2 S32x256x56x56 where
  offsetDims := []
  collapsedSliceDims := [0, 1]
  operandBatchingDims := []
  startIndicesBatchingDims := []
  startIndexMap := [0, 1]
  indexVectorDim := 4
  sliceSizes := ![1, 1]
  wf := gather_S256x13_S32x256x56x56x2_S32x256x56x56_n_01_n_n_01_4_11_wf

class Facts : Prop extends Facts₀ where

variable [Facts]
-- ==== Proof.Interp.lean ====
/-
  The pointwise function both programs compute, on the extended reals.

  For one element `x` of a channel with bounds `lo`, `hi` and knot values `q 0 … q 12`:
  `t = (x − lo) / (hi − lo)` is the element's position in the channel's range; the position is clipped into
  `[0, c]` with `c` the single-precision number nearest 0.999; the cell is `⌊clip t · 12⌋`, an integer
  among 0 … 11 because `0 ≤ clip t · 12 ≤ 12 c < 12`; the result interpolates between the cell's two knots,
  `q cell · (1 − f) + q (cell + 1) · f` with `f = t · 12 − cell` (taken from the UNCLIPPED position).

  One program finds the two knots by twelve successive selects on the cell's 32-bit word (`pick`), the other
  by a table lookup at the word, negative words wrapped by 13 and the index clamped into `[0, 12]`
  (`lookup`). They agree because the word is one of 0 … 11 (`cellWord_eq`): nothing is wrapped, nothing is
  clamped, and exactly one select fires. No finiteness is needed: the clip brings every extended real,
  the infinities and the quotient by a zero range included, into `[0, c]`.
-/
import Idealize.ShloMosaic.PureOps.Ideal
import Idealize.ShloMosaic.PureOps.Ideal.Laws
import Idealize.ShloMosaic.Lib.ValueIdx

noncomputable section

namespace Cert.Interp

open Idealize.ShloMosaic

/-! ## The four constants -/

/-- The upper clip bound: the single-precision number nearest 0.999, which is 16760439 / 2^24. -/
theorem clipHi_eq : Ideal.ofBits .f32 0x3F7FBE77#32 = ((16760439 / 16777216 : ℝ) : EReal) := by
  simp [Ideal.ofBits, Ideal.ieee, -EReal.coe_mul]; norm_num

/-- The number of cells, 12. -/
theorem cells_eq : Ideal.ofBits .f32 0x41400000#32 = ((12 : ℝ) : EReal) := by
  simp [Ideal.ofBits, Ideal.ieee, -EReal.coe_mul]; norm_num

/-! ## The function -/

/-- The position of `x` in `[lo, hi]`. -/
def pos (x lo hi : EReal) : EReal := Ideal.div (x - lo) (hi - lo)

/-- The position clipped into `[0, c]`. -/
def clip (t : EReal) : EReal :=
  min (Ideal.ofBits .f32 0x3F7FBE77#32) (max (Ideal.ofBits .f32 0x00000000#32) t)

/-- The cell of a position, as an extended real: `⌊clip t · 12⌋`. -/
def cell (t : EReal) : EReal := Ideal.liftRound Int.floor (clip t * Ideal.ofBits .f32 0x41400000#32)

/-- The offset of a position inside its cell, in cells: `t · 12 − cell t`. -/
def frac (t : EReal) : EReal := t * Ideal.ofBits .f32 0x41400000#32 - cell t

/-- The cell as a 32-bit word. -/
def cellWord (t : EReal) : BitVec 32 := Ideal.fptosi 32 (cell t)

/-- Twelve successive selects on the word `r`: the entry of `a` that `r` names, `z` when it names none. -/
def pick (r : BitVec 32) (a : Fin 12 → EReal) (z : EReal) : EReal :=
  Scalar.select (IntOp.cmpi .eq r 11#32) (a 11) (Scalar.select (IntOp.cmpi .eq r 10#32) (a 10)
  (Scalar.select (IntOp.cmpi .eq r 9#32) (a 9) (Scalar.select (IntOp.cmpi .eq r 8#32) (a 8)
  (Scalar.select (IntOp.cmpi .eq r 7#32) (a 7) (Scalar.select (IntOp.cmpi .eq r 6#32) (a 6)
  (Scalar.select (IntOp.cmpi .eq r 5#32) (a 5) (Scalar.select (IntOp.cmpi .eq r 4#32) (a 4)
  (Scalar.select (IntOp.cmpi .eq r 3#32) (a 3) (Scalar.select (IntOp.cmpi .eq r 2#32) (a 2)
  (Scalar.select (IntOp.cmpi .eq r 1#32) (a 1) (Scalar.select (IntOp.cmpi .eq r 0#32) (a 0) z)))))))))))

/-- The interpolation, the two knots found by selects. -/
def interp (x lo hi : EReal) (q : Fin 13 → EReal) : EReal :=
  pick (cellWord (pos x lo hi)) (fun k => q k.castSucc) (Ideal.ofBits .f32 0x00000000#32)
      * (Ideal.ofBits .f32 0x3F800000#32 - frac (pos x lo hi))
    + pick (cellWord (pos x lo hi)) (fun k => q k.succ) (Ideal.ofBits .f32 0x00000000#32) * frac (pos x lo hi)

/-- A table index from a word: a negative word wrapped by 13, then read signed and clamped into `[0, 12]`. -/
def tableIdx (r : BitVec 32) : Fin 13 :=
  ⟨min (Scalar.select (IntOp.cmpi .slt r 0#32) (IntOp.addi r 13#32) r).toInt.toNat 12, by omega⟩

/-- The interpolation, the two knots found by table lookups at the cell's word and at its successor. -/
def interpLookup (x lo hi : EReal) (q : Fin 13 → EReal) : EReal :=
  q (tableIdx (cellWord (pos x lo hi))) * (Ideal.ofBits .f32 0x3F800000#32 - frac (pos x lo hi))
    + q (tableIdx (IntOp.addi (cellWord (pos x lo hi)) 1#32)) * frac (pos x lo hi)

/-! ## The cell is one of 0 … 11 -/

/-- The clipped position is a real number between 0 and the clip bound. -/
theorem clip_mem (t : EReal) : ∃ u : ℝ, clip t = (u : EReal) ∧ 0 ≤ u ∧ u ≤ 16760439 / 16777216 := by
  unfold clip
  rw [clipHi_eq, Ideal.ofBits_zero_f32]
  have h0 : (0 : EReal) ≤ min ((16760439 / 16777216 : ℝ) : EReal) (max 0 t) :=
    le_min (by exact_mod_cast (by norm_num : (0 : ℝ) ≤ 16760439 / 16777216)) (le_max_left _ _)
  have h1 : min ((16760439 / 16777216 : ℝ) : EReal) (max 0 t) ≤ ((16760439 / 16777216 : ℝ) : EReal) := min_le_left _ _
  have hbot : min ((16760439 / 16777216 : ℝ) : EReal) (max 0 t) ≠ ⊥ := fun h => by
    rw [h] at h0; exact absurd h0 (by simp)
  have htop : min ((16760439 / 16777216 : ℝ) : EReal) (max 0 t) ≠ ⊤ := fun h => by
    rw [h] at h1; exact absurd h1 (by simp)
  refine ⟨(min ((16760439 / 16777216 : ℝ) : EReal) (max 0 t)).toReal, (EReal.coe_toReal htop hbot).symm, ?_, ?_⟩
  · have := EReal.toReal_le_toReal h0 (by simp) htop
    simpa using this
  · have := EReal.toReal_le_toReal h1 hbot (by simp)
    simpa using this

/-- The cell's word is one of 0 … 11. -/
theorem cellWord_eq (t : EReal) : ∃ n : Fin 12, cellWord t = BitVec.ofNat 32 n.val := by
  obtain ⟨u, hu, h0, h1⟩ := clip_mem t
  have hlo : (0 : ℤ) ≤ ⌊u * 12⌋ := Int.floor_nonneg.mpr (by positivity)
  have hhi : ⌊u * 12⌋ < 12 := Int.floor_lt.mpr (by push_cast; nlinarith)
  unfold cellWord cell
  rw [hu, cells_eq, ← EReal.coe_mul, Ideal.liftRound_coe]
  unfold Ideal.fptosi
  rw [Ideal.toIntClamped_coe]
  have hnn : (0 : ℝ) ≤ ((⌊u * 12⌋ : ℤ) : ℝ) := by exact_mod_cast hlo
  rw [if_pos hnn, Int.floor_intCast]
  refine ⟨⟨(⌊u * 12⌋).toNat, by omega⟩, ?_⟩
  have : max (-((2 ^ (32 - 1) : ℕ) : ℤ)) (min (((2 ^ (32 - 1) : ℕ) : ℤ) - 1) ⌊u * 12⌋) = ((⌊u * 12⌋).toNat : ℤ) := by
    norm_num; omega
  rw [this]
  exact BitVec.ofInt_natCast _ _

/-! ## Selects and lookups at such a word -/

/-- At the word of `n < 12` the selects return the `n`-th entry. -/
theorem pick_ofNat (n : Fin 12) (a : Fin 12 → EReal) (z : EReal) : pick (BitVec.ofNat 32 n.val) a z = a n := by
  fin_cases n <;> simp [pick, Scalar.select, IntOp.cmpi]

/-- At the word of `n ≤ 12` the lookup reads entry `n`: no wrap, no clamp. -/
theorem tableIdx_ofNat (n : Fin 13) : tableIdx (BitVec.ofNat 32 n.val) = n := by
  fin_cases n <;> simp [tableIdx, Scalar.select, IntOp.cmpi, IntOp.addi] <;> decide

/-- The successor of the word of `n < 12` is the word of `n + 1`. -/
theorem addi_one_ofNat (n : Fin 12) : IntOp.addi (BitVec.ofNat 32 n.val) 1#32 = BitVec.ofNat 32 (n.succ : Fin 13).val := by
  fin_cases n <;> simp [IntOp.addi] <;> decide

/-- THE TWO FORMS AGREE: the selects find the knots the lookups read. -/
theorem interp_eq_lookup (x lo hi : EReal) (q : Fin 13 → EReal) : interp x lo hi q = interpLookup x lo hi q := by
  obtain ⟨n, hn⟩ := cellWord_eq (pos x lo hi)
  unfold interp interpLookup
  have hcast : tableIdx (BitVec.ofNat 32 n.val) = n.castSucc := tableIdx_ofNat n.castSucc
  rw [hn, pick_ofNat, pick_ofNat, addi_one_ofNat, tableIdx_ofNat, hcast]

end Cert.Interp

end
-- ==== Proof.RefRead.lean ====
/-
  The reference's result, element by element, is the interpolation with its two knots read from the table.

  The reference computes the position `(x − lo) / (hi − lo)`, its clip, the cell `⌊clip · 12⌋` and the offset inside
  the cell exactly as `Cert.Interp` spells them, converts the cell to a 32-bit word `r`, and reads the knot table
  `points` by two gathers whose start indices are the pairs `(channel, r)` and `(channel, r + 1)`, each
  component wrapped when negative (by 256 for the channel, by 13 for the knot) and then clamped by the gather
  into the table's range. The channel component is the word of the channel's own number, below 256: neither
  wrapped nor clamped. What is left is `Interp.interpLookup` at the row of the element's channel.
-/
import proofs.«164192_j3659312136864_1_alg».proof.Proof.Gen.ReferenceIdeal.Read
import proofs.«164192_j3659312136864_1_alg».proof.Proof.Interp
import Idealize.ShloMosaic.Lib.ValueIdx
import Idealize.ShloMosaic.Lib.Pipeline.Value

noncomputable section

namespace Cert.RefRead

open Cert.ReferenceIdeal Cert.ReferenceIdeal.Gen Cert.ReferenceIdeal.Read
open Idealize.ShloMosaic Idealize.ShloMosaic.ValueIdx

/-! ## A gather of single elements of a matrix at pairs of start indices -/

/-- The start-indices position holding component `e` of the pair that result index `j` reads. -/
abbrev pairIdx (j : S32x256x56x56.Idx) (e : Fin 2) : S32x256x56x56x2.Idx := ix5 (j 0) (j 1) (j 2) (j 3) e

/-- The start of the slice on the table's row axis: the pair's first component, read signed and clamped. -/
theorem start_row (idx : IVec S32x256x56x56x2 32) (j : S32x256x56x56.Idx) :
    gather_S256x13_S32x256x56x56x2_S32x256x56x56_n_01_n_n_01_4_11.start j idx (0 : Fin 2)
      = min (idx (pairIdx j 0)).toInt.toNat 255 := by
  have hm : (0 : Fin 2) ∈ gather_S256x13_S32x256x56x56x2_S32x256x56x56_n_01_n_n_01_4_11.startIndexMap := by
    show (0 : Fin 2) ∈ ([0, 1] : List (Fin 2))
    exact List.mem_cons_self
  unfold GatherDims.start
  rw [dif_pos hm]
  have hsi : gather_S256x13_S32x256x56x56x2_S32x256x56x56_n_01_n_n_01_4_11.siIdx j ⟨List.idxOf (0 : Fin 2) gather_S256x13_S32x256x56x56x2_S32x256x56x56_n_01_n_n_01_4_11.startIndexMap, List.idxOf_lt_length_iff.2 hm⟩ = pairIdx j 0 := by
    funext b; refine Fin.ext ?_
    match b with
    | ⟨0, _⟩ => rfl
    | ⟨1, _⟩ => rfl
    | ⟨2, _⟩ => rfl
    | ⟨3, _⟩ => rfl
    | ⟨4, _⟩ => rfl
  rw [hsi]
  rfl

/-- The start of the slice on the table's column axis: the pair's second component, read signed and clamped. -/
theorem start_col (idx : IVec S32x256x56x56x2 32) (j : S32x256x56x56.Idx) :
    gather_S256x13_S32x256x56x56x2_S32x256x56x56_n_01_n_n_01_4_11.start j idx (1 : Fin 2)
      = min (idx (pairIdx j 1)).toInt.toNat 12 := by
  have hm : (1 : Fin 2) ∈ gather_S256x13_S32x256x56x56x2_S32x256x56x56_n_01_n_n_01_4_11.startIndexMap := by
    show (1 : Fin 2) ∈ ([0, 1] : List (Fin 2))
    exact List.mem_cons_of_mem _ List.mem_cons_self
  unfold GatherDims.start
  rw [dif_pos hm]
  have hsi : gather_S256x13_S32x256x56x56x2_S32x256x56x56_n_01_n_n_01_4_11.siIdx j ⟨List.idxOf (1 : Fin 2) gather_S256x13_S32x256x56x56x2_S32x256x56x56_n_01_n_n_01_4_11.startIndexMap, List.idxOf_lt_length_iff.2 hm⟩ = pairIdx j 1 := by
    funext b; refine Fin.ext ?_
    match b with
    | ⟨0, _⟩ => rfl
    | ⟨1, _⟩ => rfl
    | ⟨2, _⟩ => rfl
    | ⟨3, _⟩ => rfl
    | ⟨4, _⟩ => rfl
  rw [hsi]
  rfl

/-- THE GATHER READ AT `j`: the table at the pair of start indices found at `j`, each read signed and clamped into
    its axis (both table axes collapsed, slices of one element, the pair along the last axis of the indices). -/
theorem gather_apply {α : Type} (x : S256x13.Idx → α) (idx : IVec S32x256x56x56x2 32) (j : S32x256x56x56.Idx) :
    Host.gather gather_S256x13_S32x256x56x56x2_S32x256x56x56_n_01_n_n_01_4_11 x idx j
      = x (ix2 ⟨min (idx (pairIdx j 0)).toInt.toNat 255, by omega⟩ ⟨min (idx (pairIdx j 1)).toInt.toNat 12, by omega⟩) := by
  unfold Host.gather
  congr 1
  funext a
  refine Fin.ext ?_
  have hb : ∀ a : Fin S256x13.rank, a ∉ gather_S256x13_S32x256x56x56x2_S32x256x56x56_n_01_n_n_01_4_11.operandBatchingDims :=
    fun _ => List.not_mem_nil
  have hk : ∀ a : Fin S256x13.rank, a ∉ gather_S256x13_S32x256x56x56x2_S32x256x56x56_n_01_n_n_01_4_11.sKept := fun a h =>
    ((GatherDims.mem_sKept _ _).mp h).1 (by
      show a ∈ ([0, 1] : List (Fin 2))
      match a with
      | ⟨0, _⟩ => exact List.mem_cons_self
      | ⟨1, _⟩ => exact List.mem_cons_of_mem _ List.mem_cons_self)
  show gather_S256x13_S32x256x56x56x2_S32x256x56x56_n_01_n_n_01_4_11.start j idx a
      + gather_S256x13_S32x256x56x56x2_S32x256x56x56_n_01_n_n_01_4_11.batchCoord j a
      + gather_S256x13_S32x256x56x56x2_S32x256x56x56_n_01_n_n_01_4_11.offCoord j a = _
  rw [GatherDims.batchCoord_eq_zero _ _ _ (hb a), GatherDims.offCoord_eq_zero _ _ _ (hk a)]
  simp only [Nat.add_zero]
  match a with
  | ⟨0, _⟩ => exact start_row idx j
  | ⟨1, _⟩ => exact start_col idx j

/-! ## The start indices at an element -/

/-- The result index with a trailing unit coordinate: where the two broadcast operands of the concatenation are read. -/
abbrev unitIdx (i : S32x256x56x56.Idx) : S32x256x56x56x1.Idx := ix5 (i 0) (i 1) (i 2) (i 3) 0

theorem idx_unit_chan (i : S32x256x56x56.Idx) : idx_main_v32 (unitIdx i) = i :=
  funext fun a => Fin.ext (by match a with | ⟨0, _⟩ => rfl | ⟨1, _⟩ => rfl | ⟨2, _⟩ => rfl | ⟨3, _⟩ => rfl)
theorem idx_unit_knot (i : S32x256x56x56.Idx) : idx_main_v33 (unitIdx i) = i :=
  funext fun a => Fin.ext (by match a with | ⟨0, _⟩ => rfl | ⟨1, _⟩ => rfl | ⟨2, _⟩ => rfl | ⟨3, _⟩ => rfl)
theorem idx_unit_chan' (i : S32x256x56x56.Idx) : idx_main_v49 (unitIdx i) = i :=
  funext fun a => Fin.ext (by match a with | ⟨0, _⟩ => rfl | ⟨1, _⟩ => rfl | ⟨2, _⟩ => rfl | ⟨3, _⟩ => rfl)
theorem idx_unit_knot' (i : S32x256x56x56.Idx) : idx_main_v50 (unitIdx i) = i :=
  funext fun a => Fin.ext (by match a with | ⟨0, _⟩ => rfl | ⟨1, _⟩ => rfl | ⟨2, _⟩ => rfl | ⟨3, _⟩ => rfl)

/-- The channel's word, wrapped when negative. -/
def chanWord (c : Fin 256) : BitVec 32 :=
  Scalar.select (IntOp.cmpi .slt (BitVec.ofNat 32 c.val) 0#32) (IntOp.addi (BitVec.ofNat 32 c.val) 256#32) (BitVec.ofNat 32 c.val)

/-- A channel number is below 256: its word is not negative, so it is not wrapped, and the gather's clamp into
    `[0, 255]` leaves it. -/
theorem chanWord_index (c : Fin 256) : min (chanWord c).toInt.toNat 255 = c.val := by
  have hc := c.isLt
  have h1 : (BitVec.ofNat 32 c.val).toNat = c.val := by
    rw [BitVec.toNat_ofNat]; exact Nat.mod_eq_of_lt (by omega)
  have h2 : (BitVec.ofNat 32 c.val).toInt = (c.val : ℤ) := by
    rw [BitVec.toInt_eq_toNat_of_lt (by rw [h1]; omega), h1]
  have h3 : IntOp.cmpi .slt (BitVec.ofNat 32 c.val) 0#32 = 0#1 := by
    have hn : ¬ ((c.val : ℤ) < 0) := by omega
    simp [IntOp.cmpi, BitVec.slt, h2, hn]
  unfold chanWord
  rw [h3, select_zero, h2]
  simp only [Int.toNat_natCast]
  omega

/-- The first gather's pair at an element: (the channel's word, the cell's word wrapped). -/
theorem pair_chan (x0 : (⟨S32x256x56x56, .f32⟩ : BufTy).Contents (Elt Ideal)) (x2 : (⟨S256x2, .f32⟩ : BufTy).Contents (Elt Ideal))
    (i : S32x256x56x56.Idx) : val_main_v34 (F := Ideal) x0 x2 (pairIdx i 0) = chanWord (i 1) := by
  unfold val_main_v34
  rw [concatenate_pair_apply_left (t := S32x256x56x56x2) (s₁ := S32x256x56x56x1) (s₂ := S32x256x56x56x1) (4 : Fin 5) _ _ _ (pairIdx i 0) rfl (unitIdx i) (fun b => by
    match b with | ⟨0, _⟩ => rfl | ⟨1, _⟩ => rfl | ⟨2, _⟩ => rfl | ⟨3, _⟩ => rfl | ⟨4, _⟩ => rfl)]
  rw [val_main_v32_apply, idx_unit_chan, val_main_v31_apply, val_main_v25_apply, val_main_v22_apply, val_main_v24_apply,
    val_main_v20_apply, val_main_v21_apply, val_main_v23_apply, val_main_v19_apply]
  rfl

theorem pair_knot (x0 : (⟨S32x256x56x56, .f32⟩ : BufTy).Contents (Elt Ideal)) (x2 : (⟨S256x2, .f32⟩ : BufTy).Contents (Elt Ideal))
    (i : S32x256x56x56.Idx) : val_main_v34 (F := Ideal) x0 x2 (pairIdx i 1) = val_main_v30 (F := Ideal) x0 x2 i := by
  unfold val_main_v34
  rw [concatenate_pair_apply_right (t := S32x256x56x56x2) (s₁ := S32x256x56x56x1) (s₂ := S32x256x56x56x1) (4 : Fin 5) _ _ _ (pairIdx i 1) rfl rfl (unitIdx i) (fun b hb => by
    match b with | ⟨0, _⟩ => rfl | ⟨1, _⟩ => rfl | ⟨2, _⟩ => rfl | ⟨3, _⟩ => rfl | ⟨4, _⟩ => exact absurd rfl hb) rfl]
  rw [val_main_v33_apply, idx_unit_knot]

/-- The second gather's pair at an element. -/
theorem pair_chan' (x0 : (⟨S32x256x56x56, .f32⟩ : BufTy).Contents (Elt Ideal)) (x2 : (⟨S256x2, .f32⟩ : BufTy).Contents (Elt Ideal))
    (i : S32x256x56x56.Idx) : val_main_v51 (F := Ideal) x0 x2 (pairIdx i 0) = chanWord (i 1) := by
  unfold val_main_v51
  rw [concatenate_pair_apply_left (t := S32x256x56x56x2) (s₁ := S32x256x56x56x1) (s₂ := S32x256x56x56x1) (4 : Fin 5) _ _ _ (pairIdx i 0) rfl (unitIdx i) (fun b => by
    match b with | ⟨0, _⟩ => rfl | ⟨1, _⟩ => rfl | ⟨2, _⟩ => rfl | ⟨3, _⟩ => rfl | ⟨4, _⟩ => rfl)]
  rw [val_main_v49_apply, idx_unit_chan', val_main_v48_apply, val_main_v42_apply, val_main_v39_apply, val_main_v41_apply,
    val_main_v20_apply, val_main_v38_apply, val_main_v40_apply, val_main_v19_apply]
  rfl

theorem pair_knot' (x0 : (⟨S32x256x56x56, .f32⟩ : BufTy).Contents (Elt Ideal)) (x2 : (⟨S256x2, .f32⟩ : BufTy).Contents (Elt Ideal))
    (i : S32x256x56x56.Idx) : val_main_v51 (F := Ideal) x0 x2 (pairIdx i 1) = val_main_v47 (F := Ideal) x0 x2 i := by
  unfold val_main_v51
  rw [concatenate_pair_apply_right (t := S32x256x56x56x2) (s₁ := S32x256x56x56x1) (s₂ := S32x256x56x56x1) (4 : Fin 5) _ _ _ (pairIdx i 1) rfl rfl (unitIdx i) (fun b hb => by
    match b with | ⟨0, _⟩ => rfl | ⟨1, _⟩ => rfl | ⟨2, _⟩ => rfl | ⟨3, _⟩ => rfl | ⟨4, _⟩ => exact absurd rfl hb) rfl]
  rw [val_main_v50_apply, idx_unit_knot']

/-! ## The channel's bounds, the position, the cell -/

theorem lo_apply (x2 : (⟨S256x2, .f32⟩ : BufTy).Contents (Elt Ideal)) (k : S1x256x1x1.Idx) :
    val_main_v2 (F := Ideal) x2 k = x2 (ix2 (k 1) 0) := by
  rw [val_main_v2_apply, val_main_v1_apply, val_main_v0_apply]
  congr 1; funext a; refine Fin.ext ?_
  match a with
  | ⟨0, _⟩ => exact Nat.div_one _
  | ⟨1, _⟩ => rfl

theorem hi_apply (x2 : (⟨S256x2, .f32⟩ : BufTy).Contents (Elt Ideal)) (k : S1x256x1x1.Idx) :
    val_main_v5 (F := Ideal) x2 k = x2 (ix2 (k 1) 1) := by
  rw [val_main_v5_apply, val_main_v4_apply, val_main_v3_apply]
  congr 1; funext a; refine Fin.ext ?_
  match a with
  | ⟨0, _⟩ => exact Nat.div_one _
  | ⟨1, _⟩ => rfl

/-- The reference's quotient is the position of the element in its channel's range. -/
theorem pos_apply (x0 : (⟨S32x256x56x56, .f32⟩ : BufTy).Contents (Elt Ideal)) (x2 : (⟨S256x2, .f32⟩ : BufTy).Contents (Elt Ideal))
    (i : S32x256x56x56.Idx) :
    val_main_v10 (F := Ideal) x0 x2 i = Interp.pos (x0 i) (x2 (ix2 (i 1) 0)) (x2 (ix2 (i 1) 1)) := by
  rw [val_main_v10_apply, val_main_v7_apply, val_main_v6_apply, val_main_v9_apply, val_main_v8_apply, lo_apply, hi_apply]
  rfl

theorem cell_apply (x0 : (⟨S32x256x56x56, .f32⟩ : BufTy).Contents (Elt Ideal)) (x2 : (⟨S256x2, .f32⟩ : BufTy).Contents (Elt Ideal))
    (i : S32x256x56x56.Idx) :
    val_main_v14 (F := Ideal) x0 x2 i = Interp.cell (Interp.pos (x0 i) (x2 (ix2 (i 1) 0)) (x2 (ix2 (i 1) 1))) := by
  rw [val_main_v14_apply, val_main_v13_apply, val_main_v11_apply, val_main_call0_v4_apply, val_main_call0_v3_apply,
    val_main_call0_v2_apply, val_main_call0_v1_apply, val_main_call0_v0_apply, val_main_cst_apply, val_main_cst_0_apply,
    val_main_v12_apply, val_main_cst_1_apply, pos_apply]
  rfl

theorem frac_apply (x0 : (⟨S32x256x56x56, .f32⟩ : BufTy).Contents (Elt Ideal)) (x2 : (⟨S256x2, .f32⟩ : BufTy).Contents (Elt Ideal))
    (i : S32x256x56x56.Idx) :
    val_main_v17 (F := Ideal) x0 x2 i = Interp.frac (Interp.pos (x0 i) (x2 (ix2 (i 1) 0)) (x2 (ix2 (i 1) 1))) := by
  rw [val_main_v17_apply, val_main_v16_apply, val_main_v15_apply, val_main_cst_2_apply, cell_apply, pos_apply]
  rfl

theorem word_apply (x0 : (⟨S32x256x56x56, .f32⟩ : BufTy).Contents (Elt Ideal)) (x2 : (⟨S256x2, .f32⟩ : BufTy).Contents (Elt Ideal))
    (i : S32x256x56x56.Idx) :
    val_main_v18 (F := Ideal) x0 x2 i = Interp.cellWord (Interp.pos (x0 i) (x2 (ix2 (i 1) 0)) (x2 (ix2 (i 1) 1))) := by
  rw [val_main_v18_apply, cell_apply]
  rfl

/-! ## The two knots -/

/-- The first gather reads the channel's row at the cell's table index. -/
theorem left_apply (x0 : (⟨S32x256x56x56, .f32⟩ : BufTy).Contents (Elt Ideal)) (x1 : (⟨S256x13, .f32⟩ : BufTy).Contents (Elt Ideal))
    (x2 : (⟨S256x2, .f32⟩ : BufTy).Contents (Elt Ideal)) (i : S32x256x56x56.Idx) :
    val_main_v35 (F := Ideal) x0 x1 x2 i
      = x1 (ix2 (i 1) (Interp.tableIdx (Interp.cellWord (Interp.pos (x0 i) (x2 (ix2 (i 1) 0)) (x2 (ix2 (i 1) 1)))))) := by
  unfold val_main_v35
  rw [gather_apply]
  congr 1
  funext a; refine Fin.ext ?_
  match a with
  | ⟨0, _⟩ =>
    show min (val_main_v34 (F := Ideal) x0 x2 (pairIdx i 0)).toInt.toNat 255 = (i 1).val
    rw [pair_chan]; exact chanWord_index (i 1)
  | ⟨1, _⟩ =>
    show min (val_main_v34 (F := Ideal) x0 x2 (pairIdx i 1)).toInt.toNat 12 = _
    rw [pair_knot, val_main_v30_apply, val_main_v27_apply, val_main_v29_apply, val_main_v26_apply, val_main_v28_apply,
      val_main_c_4_apply, val_main_c_5_apply, word_apply]
    rfl

/-- The second gather reads the channel's row at the table index of the cell's successor. -/
theorem right_apply (x0 : (⟨S32x256x56x56, .f32⟩ : BufTy).Contents (Elt Ideal)) (x1 : (⟨S256x13, .f32⟩ : BufTy).Contents (Elt Ideal))
    (x2 : (⟨S256x2, .f32⟩ : BufTy).Contents (Elt Ideal)) (i : S32x256x56x56.Idx) :
    val_main_v52 (F := Ideal) x0 x1 x2 i
      = x1 (ix2 (i 1) (Interp.tableIdx (IntOp.addi (Interp.cellWord (Interp.pos (x0 i) (x2 (ix2 (i 1) 0)) (x2 (ix2 (i 1) 1)))) 1#32))) := by
  unfold val_main_v52
  rw [gather_apply]
  congr 1
  funext a; refine Fin.ext ?_
  match a with
  | ⟨0, _⟩ =>
    show min (val_main_v51 (F := Ideal) x0 x2 (pairIdx i 0)).toInt.toNat 255 = (i 1).val
    rw [pair_chan']; exact chanWord_index (i 1)
  | ⟨1, _⟩ =>
    show min (val_main_v51 (F := Ideal) x0 x2 (pairIdx i 1)).toInt.toNat 12 = _
    rw [pair_knot', val_main_v47_apply, val_main_v44_apply, val_main_v46_apply, val_main_v43_apply, val_main_v45_apply,
      val_main_c_9_apply, val_main_c_10_apply, val_main_v37_apply, val_main_v36_apply, val_main_c_6_apply, word_apply]
    rfl

/-! ## The result -/

/-- THE REFERENCE'S RESULT at an element: the interpolation on the element's channel's row, knots by lookup. -/
theorem result_apply (x0 : (⟨S32x256x56x56, .f32⟩ : BufTy).Contents (Elt Ideal)) (x1 : (⟨S256x13, .f32⟩ : BufTy).Contents (Elt Ideal))
    (x2 : (⟨S256x2, .f32⟩ : BufTy).Contents (Elt Ideal)) (i : S32x256x56x56.Idx) :
    val_main_v57 (F := Ideal) x0 x1 x2 i
      = Interp.interpLookup (x0 i) (x2 (ix2 (i 1) 0)) (x2 (ix2 (i 1) 1)) (fun k => x1 (ix2 (i 1) k)) := by
  rw [val_main_v57_apply, val_main_v55_apply, val_main_v56_apply, val_main_v54_apply, val_main_v53_apply,
    val_main_cst_11_apply, left_apply, right_apply, frac_apply]
  rfl

end Cert.RefRead

end
-- ==== Proof.KernelBlock.lean ====
/-
  What the kernel's body leaves in its output block, element by element.

  A block holds 8 batch entries × 32 channels × 3136 positions of `x`, with the 32 channels' rows of the bounds
  table (32 × 2) and of the knot table (32 × 13). A column of either table is turned into one value per channel
  and broadcast over the block, so at the element `(b, c, p)` it is the table's entry in row `c`
  (`bc_apply`, `chan_apply`). Every other operation of the body is pointwise. Read at an element, the body is
  `Cert.Interp.interp`: the position from the channel's two bounds, its clip, cell and offset, the cell's word,
  the twelve selects for each of the two knots — issued in four groups, each group continuing from what the
  group before left — and the interpolation.
-/
import proofs.«164192_j3659312136864_1_alg».proof.Proof.Gen.KernelIdeal.Frame
import proofs.«164192_j3659312136864_1_alg».proof.Proof.Interp
import Idealize.ShloMosaic.Lib.ValueIdx
import Idealize.ShloMosaic.Lib.Pipeline.Value

noncomputable section

namespace Cert.KernelBlock

open Cert.KernelIdeal Cert.KernelIdeal.Gen
open Idealize.ShloMosaic Idealize.ShloMosaic.ValueIdx

section Column
variable {α : Type}

/-- One value per channel of the block, broadcast over the block, read at an element: the element's channel's value. -/
theorem bc_apply (w : S1x32x1.Idx → α) (hb : S1x32x1.Broadcasts S8x32x3136) (b : Fin 8) (c : Fin 32) (p : Fin 3136) :
    broadcastTo S8x32x3136 w hb (ix3 b c p) = w (ix3 (0 : Fin 1) c (0 : Fin 1)) :=
  broadcastTo_apply _ hb (ix3 b c p) (ix3 (0 : Fin 1) c (0 : Fin 1)) (fun a => by
    match a with
    | ⟨0, _⟩ => show 0 = if (1 : Nat) = 1 then 0 else b.val; rw [if_pos rfl]
    | ⟨1, _⟩ => show c.val = if (32 : Nat) = 1 then 0 else c.val; rw [if_neg (by decide)]
    | ⟨2, _⟩ => show 0 = if (1 : Nat) = 1 then 0 else p.val; rw [if_pos rfl])

/-- Column `o` of a table with one row per channel of the block, reshaped to one value per channel, at a channel. -/
theorem chan_apply {n : Nat} (v : (⟨2, ![32, n]⟩ : Shape).Idx → α) (o : Nat) (ho : o < n)
    (hs : (⟨2, ![32, n]⟩ : Shape).Slices ![0, o] S32x1) (h1 : S32x1.ShapeCasts S32) (h2 : S32.ShapeCasts S1x32x1) (c : Fin 32) :
    shapeCast S1x32x1 (shapeCast S32 (extractStridedSlice S32x1 ![0, o] v hs) h1) h2 (ix3 (0 : Fin 1) c (0 : Fin 1))
      = v (ix2 c ⟨o, ho⟩) := by
  rw [shapeCast_apply _ h2 (ix3 (0 : Fin 1) c (0 : Fin 1)) (ix1 c) (by
    rewrite [Shape.rowMajor_val_one, Shape.rowMajor_val_three]; show c.val = (0 * 32 + c.val) * 1 + 0; omega)]
  rw [shapeCast_apply _ h1 (ix1 c) (ix2 c (0 : Fin 1)) (by
    rewrite [Shape.rowMajor_val_two, Shape.rowMajor_val_one]; show c.val * 1 + 0 = c.val; omega)]
  exact extractStridedSlice_apply ![0, o] v hs (ix2 c (0 : Fin 1)) (ix2 c ⟨o, ho⟩) (fun a => by
    match a with
    | ⟨0, _⟩ => show c.val = 0 + c.val; omega
    | ⟨1, _⟩ => show o = o + 0; omega)

end Column

theorem floor_apply {s : Shape} {φ : FTy} (a : FVec Ideal s φ) (i : s.Idx) : floor a i = Ideal.liftRound Int.floor (a i) := rfl
theorem fptosi_apply {s : Shape} {φ : FTy} (a : FVec Ideal s φ) (i : s.Idx) : fptosi 32 a i = Ideal.fptosi 32 (a i) := rfl
theorem cmpi_apply {s : Shape} {w : Nat} (p : CmpIPredicate) (a b : IVec s w) (i : s.Idx) : cmpi p a b i = IntOp.cmpi p (a i) (b i) := rfl

theorem pay2_apply (x0 : Vec Ideal S8x32x3136 .f32) (x2 : Vec Ideal S32x2 .f32) (b : Fin 8) (c : Fin 32) (p : Fin 3136) :
    k0_pay2 x0 x2 (ix3 b c p) = Interp.pos (x0 (ix3 b c p)) (x2 (ix2 c 0)) (x2 (ix2 c 1)) := by
  unfold k0_pay2
  simp (disch := decide) only [divf_apply, subf_apply, shapeCast_self, bc_apply, chan_apply]
  rfl

theorem pay3_apply (x0 : Vec Ideal S8x32x3136 .f32) (x2 : Vec Ideal S32x2 .f32) (b : Fin 8) (c : Fin 32) (p : Fin 3136) :
    k0_pay3 x0 x2 (ix3 b c p) = Interp.cell (Interp.pos (x0 (ix3 b c p)) (x2 (ix2 c 0)) (x2 (ix2 c 1))) := by
  unfold k0_pay3
  simp only [floor_apply, mulf_apply, minimumf_apply, maximumf_apply, broadcast_apply, pay2_apply]
  rfl

theorem pay4_apply (x0 : Vec Ideal S8x32x3136 .f32) (x2 : Vec Ideal S32x2 .f32) (b : Fin 8) (c : Fin 32) (p : Fin 3136) :
    k0_pay4 x0 x2 (ix3 b c p) = Interp.frac (Interp.pos (x0 (ix3 b c p)) (x2 (ix2 c 0)) (x2 (ix2 c 1))) := by
  unfold k0_pay4
  simp only [subf_apply, mulf_apply, broadcast_apply, pay2_apply, pay3_apply]
  rfl

theorem pay5_apply (x0 : Vec Ideal S8x32x3136 .f32) (x2 : Vec Ideal S32x2 .f32) (b : Fin 8) (c : Fin 32) (p : Fin 3136) :
    k0_pay5 x0 x2 (ix3 b c p) = Interp.cellWord (Interp.pos (x0 (ix3 b c p)) (x2 (ix2 c 0)) (x2 (ix2 c 1))) := by
  unfold k0_pay5
  simp only [fptosi_apply, pay3_apply]
  rfl

/-! ## The selects, stage by stage -/

/-- The first select of the left knot: column 0 where the cell's word is 0, else zero. -/
theorem k0_pay7_apply (x0 : Vec Ideal S8x32x3136 .f32) (x2 : Vec Ideal S32x2 .f32) (x1 : Vec Ideal S32x13 .f32) (b : Fin 8) (c : Fin 32) (p : Fin 3136) :
    k0_pay7 x0 x2 x1 (ix3 b c p)
      = Scalar.select (IntOp.cmpi .eq (k0_pay5 x0 x2 (ix3 b c p)) 0#32) (x1 (ix2 c 0)) (Ideal.ofBits .f32 0x00000000#32) := by
  unfold k0_pay7
  simp (disch := decide) only [k0_pay6, select_apply, cmpi_apply, broadcast_apply, shapeCast_self, bc_apply, chan_apply]
  rfl

/-- The first select of the right knot: column 1 where the cell's word is 0, else zero. -/
theorem k0_pay8_apply (x0 : Vec Ideal S8x32x3136 .f32) (x2 : Vec Ideal S32x2 .f32) (x1 : Vec Ideal S32x13 .f32) (b : Fin 8) (c : Fin 32) (p : Fin 3136) :
    k0_pay8 x0 x2 x1 (ix3 b c p)
      = Scalar.select (IntOp.cmpi .eq (k0_pay5 x0 x2 (ix3 b c p)) 0#32) (x1 (ix2 c 1)) (Ideal.ofBits .f32 0x00000000#32) := by
  unfold k0_pay8
  simp (disch := decide) only [k0_pay6, select_apply, cmpi_apply, broadcast_apply, shapeCast_self, bc_apply, chan_apply]
  rfl

/-- Selects 1 to 4 of the left knot, over what the earlier selects left. -/
theorem k0_pay14_apply (v3 : Vec Ideal S32x13 .f32) (v25 : IVec S8x32x3136 32) (v38 : FVec Ideal S8x32x3136 .f32) (b : Fin 8) (c : Fin 32) (p : Fin 3136) :
    k0_pay14 v3 v25 v38 k0_pay9 (ix3 b c p)
      = Scalar.select (IntOp.cmpi .eq (v25 (ix3 b c p)) 4#32) (v3 (ix2 c 4)) (Scalar.select (IntOp.cmpi .eq (v25 (ix3 b c p)) 3#32) (v3 (ix2 c 3)) (Scalar.select (IntOp.cmpi .eq (v25 (ix3 b c p)) 2#32) (v3 (ix2 c 2)) (Scalar.select (IntOp.cmpi .eq (v25 (ix3 b c p)) 1#32) (v3 (ix2 c 1)) (v38 (ix3 b c p))))) := by
  unfold k0_pay14
  simp (disch := decide) only [k0_pay9, k0_pay10, k0_pay11, k0_pay12, k0_pay13, k0_pay16, k0_pay17, k0_pay18, k0_pay19, k0_pay20,
    select_apply, cmpi_apply, broadcast_apply, shapeCast_self, bc_apply, chan_apply]
  rfl

/-- Selects 1 to 4 of the right knot. -/
theorem k0_pay15_apply (v3 : Vec Ideal S32x13 .f32) (v25 : IVec S8x32x3136 32) (v41 : FVec Ideal S8x32x3136 .f32) (b : Fin 8) (c : Fin 32) (p : Fin 3136) :
    k0_pay15 v3 v25 v41 k0_pay9 (ix3 b c p)
      = Scalar.select (IntOp.cmpi .eq (v25 (ix3 b c p)) 4#32) (v3 (ix2 c 5)) (Scalar.select (IntOp.cmpi .eq (v25 (ix3 b c p)) 3#32) (v3 (ix2 c 4)) (Scalar.select (IntOp.cmpi .eq (v25 (ix3 b c p)) 2#32) (v3 (ix2 c 3)) (Scalar.select (IntOp.cmpi .eq (v25 (ix3 b c p)) 1#32) (v3 (ix2 c 2)) (v41 (ix3 b c p))))) := by
  unfold k0_pay15
  simp (disch := decide) only [k0_pay9, k0_pay10, k0_pay11, k0_pay12, k0_pay13, k0_pay16, k0_pay17, k0_pay18, k0_pay19, k0_pay20,
    select_apply, cmpi_apply, broadcast_apply, shapeCast_self, bc_apply, chan_apply]
  rfl

/-- Selects 5 to 8 of the left knot. -/
theorem k0_pay21_apply (v3 : Vec Ideal S32x13 .f32) (v25 : IVec S8x32x3136 32) (v94 : FVec Ideal S8x32x3136 .f32) (b : Fin 8) (c : Fin 32) (p : Fin 3136) :
    k0_pay21 v3 v25 v94 k0_pay16 (ix3 b c p)
      = Scalar.select (IntOp.cmpi .eq (v25 (ix3 b c p)) 8#32) (v3 (ix2 c 8)) (Scalar.select (IntOp.cmpi .eq (v25 (ix3 b c p)) 7#32) (v3 (ix2 c 7)) (Scalar.select (IntOp.cmpi .eq (v25 (ix3 b c p)) 6#32) (v3 (ix2 c 6)) (Scalar.select (IntOp.cmpi .eq (v25 (ix3 b c p)) 5#32) (v3 (ix2 c 5)) (v94 (ix3 b c p))))) := by
  unfold k0_pay21
  simp (disch := decide) only [k0_pay9, k0_pay10, k0_pay11, k0_pay12, k0_pay13, k0_pay16, k0_pay17, k0_pay18, k0_pay19, k0_pay20,
    select_apply, cmpi_apply, broadcast_apply, shapeCast_self, bc_apply, chan_apply]
  rfl

/-- Selects 5 to 8 of the right knot. -/
theorem k0_pay22_apply (v3 : Vec Ideal S32x13 .f32) (v25 : IVec S8x32x3136 32) (v97 : FVec Ideal S8x32x3136 .f32) (b : Fin 8) (c : Fin 32) (p : Fin 3136) :
    k0_pay22 v3 v25 v97 k0_pay16 (ix3 b c p)
      = Scalar.select (IntOp.cmpi .eq (v25 (ix3 b c p)) 8#32) (v3 (ix2 c 9)) (Scalar.select (IntOp.cmpi .eq (v25 (ix3 b c p)) 7#32) (v3 (ix2 c 8)) (Scalar.select (IntOp.cmpi .eq (v25 (ix3 b c p)) 6#32) (v3 (ix2 c 7)) (Scalar.select (IntOp.cmpi .eq (v25 (ix3 b c p)) 5#32) (v3 (ix2 c 6)) (v97 (ix3 b c p))))) := by
  unfold k0_pay22
  simp (disch := decide) only [k0_pay9, k0_pay10, k0_pay11, k0_pay12, k0_pay13, k0_pay16, k0_pay17, k0_pay18, k0_pay19, k0_pay20,
    select_apply, cmpi_apply, broadcast_apply, shapeCast_self, bc_apply, chan_apply]
  rfl

/-- The last three selects of each knot and the interpolation between them. -/
theorem k0_pay1_apply (v3 : Vec Ideal S32x13 .f32) (v24 : FVec Ideal S8x32x3136 .f32) (v25 : IVec S8x32x3136 32)
    (v150 v153 : FVec Ideal S8x32x3136 .f32) (b : Fin 8) (c : Fin 32) (p : Fin 3136) :
    k0_pay1 v3 v24 v25 v150 v153 k0_pay23 (ix3 b c p)
      = Scalar.select (IntOp.cmpi .eq (v25 (ix3 b c p)) 11#32) (v3 (ix2 c 11)) (Scalar.select (IntOp.cmpi .eq (v25 (ix3 b c p)) 10#32) (v3 (ix2 c 10)) (Scalar.select (IntOp.cmpi .eq (v25 (ix3 b c p)) 9#32) (v3 (ix2 c 9)) (v150 (ix3 b c p))))
          * (Ideal.ofBits .f32 0x3F800000#32 - v24 (ix3 b c p))
        + Scalar.select (IntOp.cmpi .eq (v25 (ix3 b c p)) 11#32) (v3 (ix2 c 12)) (Scalar.select (IntOp.cmpi .eq (v25 (ix3 b c p)) 10#32) (v3 (ix2 c 11)) (Scalar.select (IntOp.cmpi .eq (v25 (ix3 b c p)) 9#32) (v3 (ix2 c 10)) (v153 (ix3 b c p))))
          * v24 (ix3 b c p) := by
  unfold k0_pay1
  simp (disch := decide) only [k0_pay23, addf_apply, mulf_apply, subf_apply, select_apply, cmpi_apply, broadcast_apply, shapeCast_self, bc_apply, chan_apply]
  rfl

/-! ## The block -/

theorem hz3 : (![0, 0, 0] : Fin 3 → Nat) = fun _ => 0 := funext fun a => by fin_cases a <;> rfl
theorem hz2 : (![0, 0] : Fin 2 → Nat) = fun _ => 0 := funext fun a => by fin_cases a <;> rfl

/-- WHAT THE BODY LEAVES in the output block, element by element: the interpolation of the element of the `x` block
    on its channel's rows of the bounds and knots blocks, the knots found by the selects. -/
theorem out_apply (x0 : Vec Ideal S8x32x3136 .f32) (x1 : Vec Ideal S32x13 .f32) (x2 : Vec Ideal S32x2 .f32)
    (b : Fin 8) (c : Fin 32) (p : Fin 3136) :
    out0_3 x0 x1 x2 (ix3 b c p)
      = Interp.interp (x0 (ix3 b c p)) (x2 (ix2 c 0)) (x2 (ix2 c 1)) (fun k => x1 (ix2 c k)) := by
  unfold out0_3
  rw [View.canon_unit_zero hz3]
  simp only [View.ld_unit_zero (S := S8x32x3136) hz3, View.ld_unit_zero (S := S32x13) hz2, View.ld_unit_zero (S := S32x2) hz2]
  rw [k0_pay1_apply, k0_pay21_apply, k0_pay22_apply, k0_pay14_apply, k0_pay15_apply, k0_pay7_apply, k0_pay8_apply,
    pay4_apply, pay5_apply]
  rfl

end Cert.KernelBlock

end
-- ==== Proof.KernelArray.lean ====
/-
  From the output blocks to the result array.

  The grid has 8 × 4 points; point `(ci, bi)` works on batch entries `8 bi … 8 bi + 7` and channels
  `32 ci … 32 ci + 31` of `x` with the last two axes merged (3136 = 56 · 56 positions), and on the same 32 rows of
  the bounds and knot tables. So the element `(b, c, p)` of the block at a point is the element
  `(8 bi + b, 32 ci + c, p)` of the array, and its channel's table rows are the arrays' rows `32 ci + c`: what
  the point writes back is the block of ONE function of the three arrays, the interpolation of each element on
  its channel's rows (`merged`). The 32 blocks tile the array, so it ends holding that function. The host merges
  the last two axes before the kernel and splits them again after it; element `(b, c, h, w)` of the result is
  element `(b, c, 56 h + w)` of the kernel's array, which was computed from element `(b, c, h, w)` of `x`.
-/
import proofs.«164192_j3659312136864_1_alg».proof.Proof.KernelBlock
import Idealize.ShloMosaic.Lib.StableHlo.Run

set_option maxRecDepth 16384

noncomputable section

namespace Cert.KernelArray

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg)

/-! ## One function of the arrays -/

/-- The interpolation of every element of the merged-layout array on its channel's rows of the two tables. -/
def merged (a0 : S32x256x3136.Idx → EReal) (a1 : S256x13.Idx → EReal) (a2 : S256x2.Idx → EReal) : S32x256x3136.Idx → EReal :=
  fun i => Interp.interp (a0 i) (a2 (ix2 (i 1) 0)) (a2 (ix2 (i 1) 1)) (fun k => a1 (ix2 (i 1) k))

/-- The same in the four-axis layout. -/
def result (a0 : S32x256x56x56.Idx → EReal) (a1 : S256x13.Idx → EReal) (a2 : S256x2.Idx → EReal) : S32x256x56x56.Idx → EReal :=
  fun i => Interp.interp (a0 i) (a2 (ix2 (i 1) 0)) (a2 (ix2 (i 1) 1)) (fun k => a1 (ix2 (i 1) k))

/-- The body's block at any of its indices. -/
theorem out_at (x0 : Vec Ideal S8x32x3136 .f32) (x1 : Vec Ideal S32x13 .f32) (x2 : Vec Ideal S32x2 .f32) (j : S8x32x3136.Idx) :
    out0_3 x0 x1 x2 j = Interp.interp (x0 j) (x2 (ix2 (j 1) 0)) (x2 (ix2 (j 1) 1)) (fun k => x1 (ix2 (j 1) k)) := by
  obtain ⟨b, c, p, rfl⟩ : ∃ (b : Fin 8) (c : Fin 32) (p : Fin 3136), j = ix3 b c p := ⟨j 0, j 1, j 2, eq_ix3 j⟩
  exact KernelBlock.out_apply x0 x1 x2 b c p

/-! ## The blocks -/

/-- The index maps over the grid: the `x` block moves with the output block; the two tables' blocks follow the
    output's channel block and stay at column block 0; the output's blocks range over 4 × 8 × 1. -/
theorem idx_facts : ∀ t : Fin cfg0.N,
    win0_0.index t (0 : Fin 3) = win0_3.index t (0 : Fin 3) ∧ win0_0.index t (1 : Fin 3) = win0_3.index t (1 : Fin 3)
    ∧ win0_0.index t (2 : Fin 3) = win0_3.index t (2 : Fin 3)
    ∧ win0_1.index t (0 : Fin 2) = win0_3.index t (1 : Fin 3) ∧ win0_1.index t (1 : Fin 2) = 0
    ∧ win0_2.index t (0 : Fin 2) = win0_3.index t (1 : Fin 3) ∧ win0_2.index t (1 : Fin 2) = 0
    ∧ win0_3.index t (0 : Fin 3) ≤ 3 ∧ win0_3.index t (1 : Fin 3) ≤ 7 ∧ win0_3.index t (2 : Fin 3) = 0 :=
  (by decide +kernel : ∀ t : Fin grid0.N, _)

/-- Every block of the output's 4 × 8 arrangement is some point's. -/
theorem idx_onto : ∀ (q0 : Fin 4) (q1 : Fin 8), ∃ t : Fin cfg0.N, win0_3.index t = ![q0.val, q1.val, 0] :=
  (by decide +kernel : ∀ (q0 : Fin 4) (q1 : Fin 8), ∃ t : Fin grid0.N, win0_3.index t = ![q0.val, q1.val, 0])

/-- WHAT POINT `t` WRITES BACK is block `t` of `merged` of the three arrays as the region finds them. -/
theorem flushed_eq (c : Dev nD) (t : Fin cfg0.N) :
    (dats m 0 c).flushed 3 t
      = ((cfg0.win 3).blk t).view.read (Elt Ideal) (merged (V m c main_v0) (V m c main_arg1) (V m c main_arg2)) := by
  show (cfg0.win 3).cut (grid0.coords t) ((dats m 0 c).after 3 t) = _
  rw [after0_3]
  obtain ⟨e00, e01, e02, e10, e11, e20, e21, b0, b1, e32⟩ := idx_facts t
  refine funext fun (j : S8x32x3136.Idx) => ?_
  refine (out_at (iblk m c 0 t) (iblk m c 1 t) (iblk m c 2 t) j).trans ?_
  have h0 : ((cfg0.win 0).blk t).view.emb j = ((cfg0.win 3).blk t).view.emb j := by
    funext a; apply Fin.ext
    match a with
    | ⟨0, _⟩ => show win0_0.index t (0 : Fin 3) * 8 + 1 * (j 0).val = win0_3.index t (0 : Fin 3) * 8 + 1 * (j 0).val; omega
    | ⟨1, _⟩ => show win0_0.index t (1 : Fin 3) * 32 + 1 * (j 1).val = win0_3.index t (1 : Fin 3) * 32 + 1 * (j 1).val; omega
    | ⟨2, _⟩ => show win0_0.index t (2 : Fin 3) * 3136 + 1 * (j 2).val = win0_3.index t (2 : Fin 3) * 3136 + 1 * (j 2).val; omega
  have h1 : ∀ k : Fin 13, ((cfg0.win 1).blk t).view.emb (ix2 (j 1) k) = ix2 ((((cfg0.win 3).blk t).view.emb j) 1) k := by
    intro k; funext a; apply Fin.ext
    match a with
    | ⟨0, _⟩ => show win0_1.index t (0 : Fin 2) * 32 + 1 * (j 1).val = win0_3.index t (1 : Fin 3) * 32 + 1 * (j 1).val; omega
    | ⟨1, _⟩ => show win0_1.index t (1 : Fin 2) * 13 + 1 * k.val = k.val; omega
  have h2 : ∀ k : Fin 2, ((cfg0.win 2).blk t).view.emb (ix2 (j 1) k) = ix2 ((((cfg0.win 3).blk t).view.emb j) 1) k := by
    intro k; funext a; apply Fin.ext
    match a with
    | ⟨0, _⟩ => show win0_2.index t (0 : Fin 2) * 32 + 1 * (j 1).val = win0_3.index t (1 : Fin 3) * 32 + 1 * (j 1).val; omega
    | ⟨1, _⟩ => show win0_2.index t (1 : Fin 2) * 2 + 1 * k.val = k.val; omega
  show Interp.interp (V m c main_v0 (((cfg0.win 0).blk t).view.emb j))
      (V m c main_arg2 (((cfg0.win 2).blk t).view.emb (ix2 (j 1) 0))) (V m c main_arg2 (((cfg0.win 2).blk t).view.emb (ix2 (j 1) 1)))
      (fun k => V m c main_arg1 (((cfg0.win 1).blk t).view.emb (ix2 (j 1) k)))
    = Interp.interp (V m c main_v0 (((cfg0.win 3).blk t).view.emb j))
      (V m c main_arg2 (ix2 ((((cfg0.win 3).blk t).view.emb j) 1) 0)) (V m c main_arg2 (ix2 ((((cfg0.win 3).blk t).view.emb j) 1) 1))
      (fun k => V m c main_arg1 (ix2 ((((cfg0.win 3).blk t).view.emb j) 1) k))
  rw [h0, h2 0, h2 1]
  simp only [h1]
  rfl

/-- An index of the array is in point `t`'s block iff each coordinate is in the block's range on its axis. -/
theorem mem_blk (t : Fin cfg0.N) (i : S32x256x3136.Idx) :
    i ∈ ((cfg0.win 3).blk t).view.set ↔ ∀ a : Fin 3, win0_3.index t a * S8x32x3136.size a ≤ (i a).val ∧ (i a).val < win0_3.index t a * S8x32x3136.size a + S8x32x3136.size a := by
  show i ∈ ((View.whole main_v1).slice (win0_3.rect t)).set ↔ _
  rw [View.set_slice_whole, Rect.mem_set_unit]
  exact Iff.rfl

/-- The blocks cover the array: element `(n, ch, p)` lies in the block of batch block `n / 8`, channel block `ch / 32`. -/
theorem cover (i : S32x256x3136.Idx) : ∃ t : Fin cfg0.N, (cfg0.win 3).flush t = true ∧ i ∈ ((cfg0.win 3).blk t).view.set := by
  have hi0 : (i 0).val < 32 := (i 0).isLt
  have hi1 : (i 1).val < 256 := (i 1).isLt
  have hi2 : (i 2).val < 3136 := (i 2).isLt
  obtain ⟨t, ht⟩ := idx_onto ⟨(i 0).val / 8, by omega⟩ ⟨(i 1).val / 32, by omega⟩
  have q0 : win0_3.index t (0 : Fin 3) = (i 0).val / 8 := congrFun ht 0
  have q1 : win0_3.index t (1 : Fin 3) = (i 1).val / 32 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 8 ≤ (i 0).val ∧ (i 0).val < win0_3.index t (0 : Fin 3) * 8 + 8; omega
  | ⟨1, _⟩ => show win0_3.index t (1 : Fin 3) * 32 ≤ (i 1).val ∧ (i 1).val < win0_3.index t (1 : Fin 3) * 32 + 32; omega
  | ⟨2, _⟩ => show win0_3.index t (2 : Fin 3) * 3136 ≤ (i 2).val ∧ (i 2).val < win0_3.index t (2 : Fin 3) * 3136 + 3136; omega

/-- THE KERNEL'S ARRAY after the run. -/
theorem final (c : Dev nD) :
    (dats m 0 c).arrAt 3 cfg0.N = merged (V m c main_v0) (V m c main_arg1) (V m c main_arg2) :=
  (dats m 0 c).arrAt_eq_of_cover 3 _ (fun t _ => flushed_eq m c t) cover

end Cert.KernelArray

end
-- ==== Proof.KernelRun.lean ====
/-
  The kernel program's run, read: its result is the interpolation of every element of `x` on its channel's rows.

  Before the kernel the host merges the last two axes of `x`; after it the host splits the last axis of the
  kernel's array again. Element `(b, c, h, w)` of the result is element `(b, c, 56 h + w)` of the kernel's array
  (both have the same row-major position), and that one was computed from the element of the merged `x` at
  the same position, which is element `(b, c, h, w)` of `x`. The channel coordinate is untouched by either
  reshape, so the element still meets its own channel's bounds and knots.
-/
import proofs.«164192_j3659312136864_1_alg».proof.Proof.KernelArray

set_option maxRecDepth 16384

noncomputable section

namespace Cert.KernelRun

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg)

/-- The array the region finds in the place of `x`: `x` with its last two axes merged. -/
theorem entry_x (c : Dev nD) :
    (V m c main_v0 : S32x256x3136.Idx → EReal)
      = shapeCast S32x256x3136 (m ((c : Thread nD τ).loc main_arg0)) Facts₀.shapeCasts_S32x256x56x56_S32x256x3136 := by
  show StableHlo.after hostOps0 (fun b => m (c, b)) (Proc.devRef .tc main_v0) = _
  after_results
  rfl

/-- Merge the last two axes, interpolate, split them again: the interpolation in the four-axis layout. -/
theorem split_merged (x : S32x256x56x56.Idx → EReal) (a1 : S256x13.Idx → EReal) (a2 : S256x2.Idx → EReal)
    (h1 : S32x256x56x56.ShapeCasts S32x256x3136) (h2 : S32x256x3136.ShapeCasts S32x256x56x56) :
    shapeCast S32x256x56x56 (KernelArray.merged (shapeCast S32x256x3136 x h1) a1 a2) h2 = KernelArray.result x a1 a2 := by
  funext i
  have hi2 : (i 2).val < 56 := (i 2).isLt
  have hi3 : (i 3).val < 56 := (i 3).isLt
  have hk : (S32x256x3136.rowMajor (ix3 (i 0) (i 1) (⟨(i 2).val * 56 + (i 3).val, by omega⟩ : Fin 3136))).val
      = (S32x256x56x56.rowMajor i).val := by
    rewrite [Shape.rowMajor_val_three, Shape.rowMajor_val_four]
    show ((i 0).val * 256 + (i 1).val) * 3136 + ((i 2).val * 56 + (i 3).val)
      = (((i 0).val * 256 + (i 1).val) * 56 + (i 2).val) * 56 + (i 3).val
    omega
  rw [shapeCast_apply _ h2 i (ix3 (i 0) (i 1) (⟨(i 2).val * 56 + (i 3).val, by omega⟩ : Fin 3136)) hk]
  unfold KernelArray.merged KernelArray.result
  rw [shapeCast_apply x h1 (ix3 (i 0) (i 1) (⟨(i 2).val * 56 + (i 3).val, by omega⟩ : Fin 3136)) i hk.symm]

/-- What the host leaves in the result buffer after the region. -/
theorem tail_eq (c : Dev nD) :
    Pipeline.afterTail₀ cfgs (dats m) 0 (V0 m) [hostOps1] c main_v2
      = KernelArray.result (m ((c : Thread nD τ).loc main_arg0)) (m ((c : Thread nD τ).loc main_arg1)) (m ((c : Thread nD τ).loc main_arg2)) := by
  unfold Pipeline.afterTail₀
  show StableHlo.after hostOps1 _ (Proc.devRef .tc main_v2) = _
  after_results
  funext i
  have hw : Pipeline.withArrays (cfgs 0).spec c (V0 m c) (fun w => (dats m 0 c).arrAt w (cfgs 0).N) (Proc.devRef .tc main_v1)
      = KernelArray.merged (V m c main_v0) (V m c main_arg1) (V m c main_arg2) :=
    (Pipeline.withArrays_arr spec0 launch0.win.arr_inj c (V0 m c) (fun w => (dats m 0 c).arrAt w cfg0.N) 3).trans
      (KernelArray.final m c)
  show shapeCast S32x256x56x56
      (Pipeline.withArrays (cfgs 0).spec c (V0 m c) (fun w => (dats m 0 c).arrAt w (cfgs 0).N) (Proc.devRef .tc main_v1))
      Gen.shapeCasts_S32x256x3136_S32x256x56x56 i = _
  rw [hw, entry_x, V_main_arg1, V_main_arg2]
  exact congrFun (split_merged _ _ _ _ _) i

/-- THE KERNEL PROGRAM'S RUN on the extended reals: it terminates with the interpolation of every element of `x` on
    its channel's bounds and knots in the result buffer, and its arguments as they were. -/
theorem run : θ_run defs (onTc (τ := τ) (main (F := Ideal))) ⟨m, fun _ => 0, ρ⟩ fun r => ∀ c : Dev nD,
      r.2.mem ((c.tc : Thread nD τ).loc main_v2)
        = KernelArray.result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v2 (Pipeline.mem_restRefs_of main_v2 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelRun

end
-- ==== Proof.lean ====
/-
  The kernel evaluates a channelwise piecewise-linear function of every element of `x`: the element's position in
  its channel's range `[lo, hi]` is clipped, scaled to twelve cells and floored; the result interpolates
  between the channel's knot values at the two ends of that cell. The kernel finds the two knot values with
  twelve successive selects on the cell's number; the reference reads them from the knot table with two
  gathers at (channel, cell) and (channel, cell + 1).

  Both programs compute the position, the cell and the offset inside the cell by the same operations on the same
  operands with the same constants, so on the extended reals those are the same numbers whatever the inputs
  are. The clip puts the scaled position in `[0, 12 c]` with `c < 1`, so the cell is one of 0 … 11: exactly
  one select fires, and the gathers' indices are in range, neither wrapped nor clamped (`Proof/Interp.lean`).
  `Proof/RefRead.lean` reads the reference's result element by element, `Proof/KernelBlock.lean` the kernel
  body's block, `Proof/KernelArray.lean` the kernel's array from its blocks and `Proof/KernelRun.lean` the kernel
  program's result through the two reshapes around the kernel. Nothing here uses that the inputs are finite.

  The three frames: the kernel's at both readings are the generated frames; the reference has no kernel and its frame
  is its run with the result dropped. The kernel's idealization rewrote nothing, so there is nothing to preserve.
-/
import proofs.«164192_j3659312136864_1_alg».proof.Defs
import proofs.«164192_j3659312136864_1_alg».proof.Proof.Gen.Kernel
import proofs.«164192_j3659312136864_1_alg».proof.Proof.Gen.Kernel.Skeleton
import proofs.«164192_j3659312136864_1_alg».proof.Proof.Gen.Kernel.Launch
import proofs.«164192_j3659312136864_1_alg».proof.Proof.Gen.Kernel.Points
import proofs.«164192_j3659312136864_1_alg».proof.Proof.Gen.Kernel.Frame
import proofs.«164192_j3659312136864_1_alg».proof.Proof.Gen.KernelIdeal
import proofs.«164192_j3659312136864_1_alg».proof.Proof.Gen.KernelIdeal.Skeleton
import proofs.«164192_j3659312136864_1_alg».proof.Proof.Gen.KernelIdeal.Launch
import proofs.«164192_j3659312136864_1_alg».proof.Proof.Gen.KernelIdeal.Points
import proofs.«164192_j3659312136864_1_alg».proof.Proof.Gen.KernelIdeal.Frame
import proofs.«164192_j3659312136864_1_alg».proof.Proof.Gen.ReferenceIdeal
import proofs.«164192_j3659312136864_1_alg».proof.Proof.Gen.Pre_finite_inputs
import proofs.«164192_j3659312136864_1_alg».proof.Proof.Gen.ReferenceIdeal.Run
import proofs.«164192_j3659312136864_1_alg».proof.Proof.Gen.ReferenceIdeal.Read
import proofs.«164192_j3659312136864_1_alg».proof.Proof.RefRead
import proofs.«164192_j3659312136864_1_alg».proof.Proof.KernelRun
import Idealize.ShloMosaic.Adequacy
import Idealize.ShloMosaic.Init

noncomputable section

namespace Cert.Proof

open Idealize.ShloMosaic Idealize.ShloMosaic.TcCoe Idealize.SL.Sem

/-- The word-level kernel program runs and leaves its arguments alone. -/
theorem frame_kernel : Cert.frame_Kernel := fun m ρ _ => Cert.Kernel.Gen.frame m ρ

/-- So does the kernel program read on the extended reals. -/
theorem frame_kernelIdeal : Cert.frame_KernelIdeal := fun m ρ _ => Cert.KernelIdeal.Gen.frame m ρ

/-- The reference is host operations only: its frame is its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- On the extended reals both programs end with the interpolation of every element of `x` on its channel's
    bounds and knots: the kernel with the knots found by selects, the reference by lookups, which agree. -/
theorem algebraic : Cert.algebraic_KernelIdeal_ReferenceIdeal := by
  intro m ρ m' ρ' _ hagree
  refine ⟨fun c => Cert.KernelArray.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v57_eq, (hagree c).1, (hagree c).2.1, (hagree c).2.2]
  funext i
  rw [Cert.RefRead.result_apply]
  exact (Cert.Interp.interp_eq_lookup _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
